-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x500000 : Shape := ⟨2, ![2, 500000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn {F : FTy → Type} [FloatOps F] (main_arg0 : FVec F S50000x128 .f32) (main_arg1 : IVec S2x500000 32) (main_arg2 : FVec F S128x128 .f32) (main_arg3 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  main_v13
-- ==== Kernel.lean ====
abbrev S50000x128 : Shape := ⟨2, ![50000, 128]⟩
abbrev S2x500000 : Shape := ⟨2, ![2, 500000]⟩
abbrev S128x128 : Shape := ⟨2, ![128, 128]⟩
abbrev S128 : Shape := ⟨1, ![128]⟩
abbrev S50000 : Shape := ⟨1, ![50000]⟩
abbrev S1x500000 : Shape := ⟨2, ![1, 500000]⟩
abbrev S500000 : Shape := ⟨1, ![500000]⟩
abbrev S550000 : Shape := ⟨1, ![550000]⟩
abbrev S_ : Shape := ⟨0, ![]⟩
abbrev S550000x1 : Shape := ⟨2, ![550000, 1]⟩
abbrev S10000x128 : Shape := ⟨2, ![10000, 128]⟩
abbrev S550000x128 : Shape := ⟨2, ![550000, 128]⟩
abbrev S1x128 : Shape := ⟨2, ![1, 128]⟩

abbrev nBuf : Space → Nat
  | .hbm => 63
  | .vmem => 10
  | .smem => 0
  | _ => 0

abbrev bufTy : (tb : Table) → Fin (tcTables nBuf tb) → BufTy
  | .hbm, ⟨0, _⟩ => ⟨S50000x128, .f32⟩
  | .hbm, ⟨1, _⟩ => ⟨S2x500000, .i32⟩
  | .hbm, ⟨2, _⟩ => ⟨S128x128, .f32⟩
  | .hbm, ⟨3, _⟩ => ⟨S128, .f32⟩
  | .hbm, ⟨4, _⟩ => ⟨S50000, .i32⟩
  | .hbm, ⟨5, _⟩ => ⟨S1x500000, .i32⟩
  | .hbm, ⟨6, _⟩ => ⟨S500000, .i32⟩
  | .hbm, ⟨7, _⟩ => ⟨S550000, .i32⟩
  | .hbm, ⟨8, _⟩ => ⟨S1x500000, .i32⟩
  | .hbm, ⟨9, _⟩ => ⟨S500000, .i32⟩
  | .hbm, ⟨10, _⟩ => ⟨S550000, .i32⟩
  | .hbm, ⟨11, _⟩ => ⟨S_, .f32⟩
  | .hbm, ⟨12, _⟩ => ⟨S550000, .f32⟩
  | .hbm, ⟨13, _⟩ => ⟨S_, .f32⟩
  | .hbm, ⟨14, _⟩ => ⟨S50000, .f32⟩
  | .hbm, ⟨15, _⟩ => ⟨S550000x1, .i32⟩
  | .hbm, ⟨16, _⟩ => ⟨S50000, .f32⟩
  | .hbm, ⟨17, _⟩ => ⟨S_, .f32⟩
  | .hbm, ⟨18, _⟩ => ⟨S50000, .f32⟩
  | .hbm, ⟨19, _⟩ => ⟨S50000, .i1⟩
  | .hbm, ⟨20, _⟩ => ⟨S50000, .f32⟩
  | .hbm, ⟨21, _⟩ => ⟨S_, .f32⟩
  | .hbm, ⟨22, _⟩ => ⟨S_, .f32⟩
  | .hbm, ⟨23, _⟩ => ⟨S50000, .f32⟩
  | .hbm, ⟨24, _⟩ => ⟨S50000, .f32⟩
  | .hbm, ⟨25, _⟩ => ⟨S_, .i32⟩
  | .hbm, ⟨26, _⟩ => ⟨S550000, .i32⟩
  | .hbm, ⟨27, _⟩ => ⟨S550000, .i1⟩
  | .hbm, ⟨28, _⟩ => ⟨S_, .i32⟩
  | .hbm, ⟨29, _⟩ => ⟨S550000, .i32⟩
  | .hbm, ⟨30, _⟩ => ⟨S550000, .i32⟩
  | .hbm, ⟨31, _⟩ => ⟨S550000, .i32⟩
  | .hbm, ⟨32, _⟩ => ⟨S550000x1, .i32⟩
  | .hbm, ⟨33, _⟩ => ⟨S550000, .f32⟩
  | .hbm, ⟨34, _⟩ => ⟨S_, .i32⟩
  | .hbm, ⟨35, _⟩ => ⟨S550000, .i32⟩
  | .hbm, ⟨36, _⟩ => ⟨S550000, .i1⟩
  | .hbm, ⟨37, _⟩ => ⟨S_, .i32⟩
  | .hbm, ⟨38, _⟩ => ⟨S550000, .i32⟩
  | .hbm, ⟨39, _⟩ => ⟨S550000, .i32⟩
  | .hbm, ⟨40, _⟩ => ⟨S550000, .i32⟩
  | .hbm, ⟨41, _⟩ => ⟨S550000x1, .i32⟩
  | .hbm, ⟨42, _⟩ => ⟨S550000, .f32⟩
  | .hbm, ⟨43, _⟩ => ⟨S550000, .f32⟩
  | .hbm, ⟨44, _⟩ => ⟨S50000x128, .f32⟩
  | .hbm, ⟨45, _⟩ => ⟨S_, .i32⟩
  | .hbm, ⟨46, _⟩ => ⟨S550000, .i32⟩
  | .hbm, ⟨47, _⟩ => ⟨S550000, .i1⟩
  | .hbm, ⟨48, _⟩ => ⟨S_, .i32⟩
  | .hbm, ⟨49, _⟩ => ⟨S550000, .i32⟩
  | .hbm, ⟨50, _⟩ => ⟨S550000, .i32⟩
  | .hbm, ⟨51, _⟩ => ⟨S550000, .i32⟩
  | .hbm, ⟨52, _⟩ => ⟨S550000x1, .i32⟩
  | .hbm, ⟨53, _⟩ => ⟨S550000x128, .f32⟩
  | .hbm, ⟨54, _⟩ => ⟨S550000x1, .f32⟩
  | .hbm, ⟨55, _⟩ => ⟨S550000x128, .f32⟩
  | .hbm, ⟨56, _⟩ => ⟨S550000x128, .f32⟩
  | .hbm, ⟨57, _⟩ => ⟨S_, .f32⟩
  | .hbm, ⟨58, _⟩ => ⟨S50000x128, .f32⟩
  | .hbm, ⟨59, _⟩ => ⟨S550000x1, .i32⟩
  | .hbm, ⟨60, _⟩ => ⟨S50000x128, .f32⟩
  | .hbm, ⟨61, _⟩ => ⟨S1x128, .f32⟩
  | .hbm, ⟨62, _⟩ => ⟨S50000x128, .f32⟩
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S10000x128, .f32⟩
  | .local _ .vmem, ⟨4, _⟩ => ⟨S10000x128, .f32⟩
  | .local _ .vmem, ⟨5, _⟩ => ⟨S10000x128, .f32⟩
  | .local _ .vmem, ⟨6, _⟩ => ⟨S10000x128, .f32⟩
  | .local _ .vmem, ⟨7, _⟩ => ⟨S1x128, .f32⟩
  | .local _ .vmem, ⟨8, _⟩ => ⟨S10000x128, .f32⟩
  | .local _ .vmem, ⟨9, _⟩ => ⟨S10000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_call0_v0 : Ref sig .tc := ⟨.hbm, 22, rfl⟩
abbrev main_call0_v1 : Ref sig .tc := ⟨.hbm, 23, rfl⟩
abbrev main_v14 : Ref sig .tc := ⟨.hbm, 24, rfl⟩
abbrev main_c : Ref sig .tc := ⟨.hbm, 25, rfl⟩
abbrev main_v15 : Ref sig .tc := ⟨.hbm, 26, rfl⟩
abbrev main_v16 : Ref sig .tc := ⟨.hbm, 27, rfl⟩
abbrev main_c_3 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_c_4 : Ref sig .tc := ⟨.hbm, 34, rfl⟩
abbrev main_v22 : Ref sig .tc := ⟨.hbm, 35, rfl⟩
abbrev main_v23 : Ref sig .tc := ⟨.hbm, 36, rfl⟩
abbrev main_c_5 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_c_6 : Ref sig .tc := ⟨.hbm, 45, rfl⟩
abbrev main_v31 : Ref sig .tc := ⟨.hbm, 46, rfl⟩
abbrev main_v32 : Ref sig .tc := ⟨.hbm, 47, rfl⟩
abbrev main_c_7 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_8 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x500000_S1x500000_0_0 : S2x500000.Slices ![0, 0] S1x500000
  shapeCasts_S1x500000_S500000 : S1x500000.ShapeCasts S500000
  concatenates_S500000_S50000_S550000_d0 : Shape.Concatenates [S500000, S50000] S550000 0
  slices_S2x500000_S1x500000_1_0 : S2x500000.Slices ![1, 0] S1x500000
  bcast_S_S550000 : S_.BroadcastsInDim S550000 (![] : Fin 0 → Fin S550000.rank)
  bcast_S_S50000 : S_.BroadcastsInDim S50000 (![] : Fin 0 → Fin S50000.rank)
  bcast_S550000_S550000x1_0 : S550000.BroadcastsInDim S550000x1 (![0] : Fin 1 → Fin S550000x1.rank)
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S550000x1_S550000x128_0_1 : S550000x1.BroadcastsInDim S550000x128 (![0, 1] : Fin 2 → Fin S550000x128.rank)
  bcast_S_S50000x128 : S_.BroadcastsInDim S50000x128 (![] : Fin 0 → Fin S50000x128.rank)
  shapeCasts_S128_S1x128 : S128.ShapeCasts S1x128
  shapeCasts_S10000x128_S10000x128 : S10000x128.ShapeCasts S10000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  scatter_S50000_S550000x1_S550000_n_0_0_1_wf : ScatterDims.WF S50000 S550000x1 S550000 [] [0] [0] 1
  gather_S50000_S550000x1_S550000_n_0_n_n_0_1_1_wf : GatherDims.WF S50000 S550000x1 S550000 [] [0] [] [0] [] 1 ![1]
  dot_S10000x128_S128x128_S10000x128_1_0_0_1_n_n_wf : DotDims.WF S10000x128 S128x128 S10000x128 [1] [0] [0] [1] [] []
  gather_S50000x128_S550000x1_S550000x128_1_0_n_n_0_1_1128_wf : GatherDims.WF S50000x128 S550000x1 S550000x128 [1] [0] [] [0] [] 1 ![1, 128]
  scatter_S50000x128_S550000x1_S550000x128_1_0_0_1_wf : ScatterDims.WF S50000x128 S550000x1 S550000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S50000x128.size a
  hwx0_0 : ∀ i : grid0.Coords, EltTy.bits .f32 = 32 ∨ (Rect.block (s := S50000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S50000x128.size a
  hwx0_2 : ∀ i : grid0.Coords, EltTy.bits .f32 = 32 ∨ (Rect.block (s := S50000x128) S10000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S50000x128.size a
  hwx1_0 : ∀ i : grid1.Coords, EltTy.bits .f32 = 32 ∨ (Rect.block (s := S50000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x128.size a ≤ S50000x128.size a
  hwx1_2 : ∀ i : grid1.Coords, EltTy.bits .f32 = 32 ∨ (Rect.block (s := S50000x128) S10000x128.size (cc1_transform_2 i) (hinb1_2 i)).WholeWords (EltTy.packing .f32)

variable [Facts₀]

def scatter_S50000_S550000x1_S550000_n_0_0_1 : ScatterDims S50000 S550000x1 S550000 where
  updateWindowDims := []
  insertedWindowDims := [0]
  scatterDimsToOperandDims := [0]
  indexVectorDim := 1
  wf := scatter_S50000_S550000x1_S550000_n_0_0_1_wf
def gather_S50000_S550000x1_S550000_n_0_n_n_0_1_1 : GatherDims S50000 S550000x1 S550000 where
  offsetDims := []
  collapsedSliceDims := [0]
  operandBatchingDims := []
  startIndicesBatchingDims := []
  startIndexMap := [0]
  indexVectorDim := 1
  sliceSizes := ![1]
  wf := gather_S50000_S550000x1_S550000_n_0_n_n_0_1_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S50000x128_S550000x1_S550000x128_1_0_n_n_0_1_1128 : GatherDims S50000x128 S550000x1 S550000x128 where
  offsetDims := [1]
  collapsedSliceDims := [0]
  operandBatchingDims := []
  startIndicesBatchingDims := []
  startIndexMap := [0]
  indexVectorDim := 1
  sliceSizes := ![1, 128]
  wf := gather_S50000x128_S550000x1_S550000x128_1_0_n_n_0_1_1128_wf
def scatter_S50000x128_S550000x1_S550000x128_1_0_0_1 : ScatterDims S50000x128 S550000x1 S550000x128 where
  updateWindowDims := [1]
  insertedWindowDims := [0]
  scatterDimsToOperandDims := [0]
  indexVectorDim := 1
  wf := scatter_S50000x128_S550000x1_S550000x128_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S10000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S10000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x500000 : Shape := ⟨2, ![2, 500000]⟩
abbrev S128x128 : Shape := ⟨2, ![128, 128]⟩
abbrev S128 : Shape := ⟨1, ![128]⟩
abbrev S50000 : Shape := ⟨1, ![50000]⟩
abbrev S1x500000 : Shape := ⟨2, ![1, 500000]⟩
abbrev S500000 : Shape := ⟨1, ![500000]⟩
abbrev S550000 : Shape := ⟨1, ![550000]⟩
abbrev S_ : Shape := ⟨0, ![]⟩
abbrev S550000x1 : Shape := ⟨2, ![550000, 1]⟩
abbrev S550000x128 : Shape := ⟨2, ![550000, 128]⟩
abbrev S1x128 : Shape := ⟨2, ![1, 128]⟩

abbrev nBuf : Space → Nat
  | .hbm => 67
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x500000, .i32⟩
  | .hbm, ⟨2, _⟩ => ⟨S128x128, .f32⟩
  | .hbm, ⟨3, _⟩ => ⟨S128, .f32⟩
  | .hbm, ⟨4, _⟩ => ⟨S50000, .i32⟩
  | .hbm, ⟨5, _⟩ => ⟨S1x500000, .i32⟩
  | .hbm, ⟨6, _⟩ => ⟨S500000, .i32⟩
  | .hbm, ⟨7, _⟩ => ⟨S550000, .i32⟩
  | .hbm, ⟨8, _⟩ => ⟨S1x500000, .i32⟩
  | .hbm, ⟨9, _⟩ => ⟨S500000, .i32⟩
  | .hbm, ⟨10, _⟩ => ⟨S550000, .i32⟩
  | .hbm, ⟨11, _⟩ => ⟨S_, .f32⟩
  | .hbm, ⟨12, _⟩ => ⟨S550000, .f32⟩
  | .hbm, ⟨13, _⟩ => ⟨S_, .f32⟩
  | .hbm, ⟨14, _⟩ => ⟨S50000, .f32⟩
  | .hbm, ⟨15, _⟩ => ⟨S550000x1, .i32⟩
  | .hbm, ⟨16, _⟩ => ⟨S50000, .f32⟩
  | .hbm, ⟨17, _⟩ => ⟨S_, .f32⟩
  | .hbm, ⟨18, _⟩ => ⟨S50000, .f32⟩
  | .hbm, ⟨19, _⟩ => ⟨S50000, .i1⟩
  | .hbm, ⟨20, _⟩ => ⟨S50000, .f32⟩
  | .hbm, ⟨21, _⟩ => ⟨S_, .f32⟩
  | .hbm, ⟨22, _⟩ => ⟨S_, .f32⟩
  | .hbm, ⟨23, _⟩ => ⟨S50000, .f32⟩
  | .hbm, ⟨24, _⟩ => ⟨S50000, .f32⟩
  | .hbm, ⟨25, _⟩ => ⟨S_, .i32⟩
  | .hbm, ⟨26, _⟩ => ⟨S550000, .i32⟩
  | .hbm, ⟨27, _⟩ => ⟨S550000, .i1⟩
  | .hbm, ⟨28, _⟩ => ⟨S_, .i32⟩
  | .hbm, ⟨29, _⟩ => ⟨S550000, .i32⟩
  | .hbm, ⟨30, _⟩ => ⟨S550000, .i32⟩
  | .hbm, ⟨31, _⟩ => ⟨S550000, .i32⟩
  | .hbm, ⟨32, _⟩ => ⟨S550000x1, .i32⟩
  | .hbm, ⟨33, _⟩ => ⟨S550000, .f32⟩
  | .hbm, ⟨34, _⟩ => ⟨S_, .i32⟩
  | .hbm, ⟨35, _⟩ => ⟨S550000, .i32⟩
  | .hbm, ⟨36, _⟩ => ⟨S550000, .i1⟩
  | .hbm, ⟨37, _⟩ => ⟨S_, .i32⟩
  | .hbm, ⟨38, _⟩ => ⟨S550000, .i32⟩
  | .hbm, ⟨39, _⟩ => ⟨S550000, .i32⟩
  | .hbm, ⟨40, _⟩ => ⟨S550000, .i32⟩
  | .hbm, ⟨41, _⟩ => ⟨S550000x1, .i32⟩
  | .hbm, ⟨42, _⟩ => ⟨S550000, .f32⟩
  | .hbm, ⟨43, _⟩ => ⟨S550000, .f32⟩
  | .hbm, ⟨44, _⟩ => ⟨S50000x128, .f32⟩
  | .hbm, ⟨45, _⟩ => ⟨S_, .i32⟩
  | .hbm, ⟨46, _⟩ => ⟨S550000, .i32⟩
  | .hbm, ⟨47, _⟩ => ⟨S550000, .i1⟩
  | .hbm, ⟨48, _⟩ => ⟨S_, .i32⟩
  | .hbm, ⟨49, _⟩ => ⟨S550000, .i32⟩
  | .hbm, ⟨50, _⟩ => ⟨S550000, .i32⟩
  | .hbm, ⟨51, _⟩ => ⟨S550000, .i32⟩
  | .hbm, ⟨52, _⟩ => ⟨S550000x1, .i32⟩
  | .hbm, ⟨53, _⟩ => ⟨S550000x128, .f32⟩
  | .hbm, ⟨54, _⟩ => ⟨S550000x1, .f32⟩
  | .hbm, ⟨55, _⟩ => ⟨S550000x128, .f32⟩
  | .hbm, ⟨56, _⟩ => ⟨S550000x128, .f32⟩
  | .hbm, ⟨57, _⟩ => ⟨S_, .f32⟩
  | .hbm, ⟨58, _⟩ => ⟨S50000x128, .f32⟩
  | .hbm, ⟨59, _⟩ => ⟨S550000x1, .i32⟩
  | .hbm, ⟨60, _⟩ => ⟨S50000x128, .f32⟩
  | .hbm, ⟨61, _⟩ => ⟨S1x128, .f32⟩
  | .hbm, ⟨62, _⟩ => ⟨S50000x128, .f32⟩
  | .hbm, ⟨63, _⟩ => ⟨S50000x128, .f32⟩
  | .hbm, ⟨64, _⟩ => ⟨S_, .f32⟩
  | .hbm, ⟨65, _⟩ => ⟨S50000x128, .f32⟩
  | .hbm, ⟨66, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_call0_v0 : Ref sig .tc := ⟨.hbm, 22, rfl⟩
abbrev main_call0_v1 : Ref sig .tc := ⟨.hbm, 23, rfl⟩
abbrev main_v14 : Ref sig .tc := ⟨.hbm, 24, rfl⟩
abbrev main_c : Ref sig .tc := ⟨.hbm, 25, rfl⟩
abbrev main_v15 : Ref sig .tc := ⟨.hbm, 26, rfl⟩
abbrev main_v16 : Ref sig .tc := ⟨.hbm, 27, rfl⟩
abbrev main_c_3 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_c_4 : Ref sig .tc := ⟨.hbm, 34, rfl⟩
abbrev main_v22 : Ref sig .tc := ⟨.hbm, 35, rfl⟩
abbrev main_v23 : Ref sig .tc := ⟨.hbm, 36, rfl⟩
abbrev main_c_5 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_c_6 : Ref sig .tc := ⟨.hbm, 45, rfl⟩
abbrev main_v31 : Ref sig .tc := ⟨.hbm, 46, rfl⟩
abbrev main_v32 : Ref sig .tc := ⟨.hbm, 47, rfl⟩
abbrev main_c_7 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_8 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_call1_cst : Ref sig .tc := ⟨.hbm, 64, rfl⟩
abbrev main_call1_v0 : Ref sig .tc := ⟨.hbm, 65, rfl⟩
abbrev main_v47 : Ref sig .tc := ⟨.hbm, 66, rfl⟩

abbrev nD : Nat := 1
abbrev τ : Topo := Topo.v7x

variable {F : FTy → Type} [FloatOps F]

class Facts₀ : Prop where
  slices_S2x500000_S1x500000_0_0 : S2x500000.Slices ![0, 0] S1x500000
  shapeCasts_S1x500000_S500000 : S1x500000.ShapeCasts S500000
  concatenates_S500000_S50000_S550000_d0 : Shape.Concatenates [S500000, S50000] S550000 0
  slices_S2x500000_S1x500000_1_0 : S2x500000.Slices ![1, 0] S1x500000
  bcast_S_S550000 : S_.BroadcastsInDim S550000 (![] : Fin 0 → Fin S550000.rank)
  bcast_S_S50000 : S_.BroadcastsInDim S50000 (![] : Fin 0 → Fin S50000.rank)
  bcast_S550000_S550000x1_0 : S550000.BroadcastsInDim S550000x1 (![0] : Fin 1 → Fin S550000x1.rank)
  bcast_S550000x1_S550000x128_0_1 : S550000x1.BroadcastsInDim S550000x128 (![0, 1] : Fin 2 → Fin S550000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  scatter_S50000_S550000x1_S550000_n_0_0_1_wf : ScatterDims.WF S50000 S550000x1 S550000 [] [0] [0] 1
  gather_S50000_S550000x1_S550000_n_0_n_n_0_1_1_wf : GatherDims.WF S50000 S550000x1 S550000 [] [0] [] [0] [] 1 ![1]
  dot_S50000x128_S128x128_S50000x128_1_0_0_1_n_n_wf : DotDims.WF S50000x128 S128x128 S50000x128 [1] [0] [0] [1] [] []
  gather_S50000x128_S550000x1_S550000x128_1_0_n_n_0_1_1128_wf : GatherDims.WF S50000x128 S550000x1 S550000x128 [1] [0] [] [0] [] 1 ![1, 128]
  scatter_S50000x128_S550000x1_S550000x128_1_0_0_1_wf : ScatterDims.WF S50000x128 S550000x1 S550000x128 [1] [0] [0] 1

variable [Facts₀]

def scatter_S50000_S550000x1_S550000_n_0_0_1 : ScatterDims S50000 S550000x1 S550000 where
  updateWindowDims := []
  insertedWindowDims := [0]
  scatterDimsToOperandDims := [0]
  indexVectorDim := 1
  wf := scatter_S50000_S550000x1_S550000_n_0_0_1_wf
def gather_S50000_S550000x1_S550000_n_0_n_n_0_1_1 : GatherDims S50000 S550000x1 S550000 where
  offsetDims := []
  collapsedSliceDims := [0]
  operandBatchingDims := []
  startIndicesBatchingDims := []
  startIndexMap := [0]
  indexVectorDim := 1
  sliceSizes := ![1]
  wf := gather_S50000_S550000x1_S550000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S550000x1_S550000x128_1_0_n_n_0_1_1128 : GatherDims S50000x128 S550000x1 S550000x128 where
  offsetDims := [1]
  collapsedSliceDims := [0]
  operandBatchingDims := []
  startIndicesBatchingDims := []
  startIndexMap := [0]
  indexVectorDim := 1
  sliceSizes := ![1, 128]
  wf := gather_S50000x128_S550000x1_S550000x128_1_0_n_n_0_1_1128_wf
def scatter_S50000x128_S550000x1_S550000x128_1_0_0_1 : ScatterDims S50000x128 S550000x1 S550000x128 where
  updateWindowDims := [1]
  insertedWindowDims := [0]
  scatterDimsToOperandDims := [0]
  indexVectorDim := 1
  wf := scatter_S50000x128_S550000x1_S550000x128_1_0_0_1_wf

class Facts : Prop extends Facts₀ where

variable [Facts]
-- ==== Proof.LibPlainDot.lean ====
/-
  A matrix product of an [R, K] operand by a [K, C] operand, contracted over the one shared axis (the
  dimension numbers lhs_contracting = [1], rhs_contracting = [0], no batch axes), read at an entry (p, q) on the
  extended reals: the plain sum over k of l(p, k) · r(k, q). Stated for ANY dimension-number record of that
  form, so that it serves every such product whatever the record's name and whatever R, K, C are.
-/
import Idealize.ShloMosaic.PureOps.Ideal.Laws
import Idealize.ShloMosaic.Lib.ValueIdx

noncomputable section

namespace Idealize.ShloMosaic.PlainDot

open Idealize.ShloMosaic Idealize.ShloMosaic.ValueIdx

variable {R K C : ℕ}

/-- The dimension numbers of a plain row-by-column product: the left operand's axis 1 is contracted with the right
    operand's axis 0; the left operand's axis 0 and the right operand's axis 1 survive, in that order; no batch axes. -/
structure IsPlain (d : DotDims ⟨2, ![R, K]⟩ ⟨2, ![K, C]⟩ ⟨2, ![R, C]⟩) : Prop where
  lc : d.lhsContracting = [1]
  rc : d.rhsContracting = [0]
  ln : d.lhsNonContracting = [0]
  rn : d.rhsNonContracting = [1]
  lb : d.lhsBatch = []
  rb : d.rhsBatch = []

variable {d : DotDims ⟨2, ![R, K]⟩ ⟨2, ![K, C]⟩ ⟨2, ![R, C]⟩}

/-- A coordinate of an index depends on the axis' position only. -/
private theorem coord_congr {s : Shape} (j : s.Idx) (a b : Nat) (ha : a < s.rank) (hb : b < s.rank) (e : a = b) :
    (j ⟨a, ha⟩).val = (j ⟨b, hb⟩).val := by subst e; rfl

/-- The left operand's row is the result's row. -/
theorem lhs_row (h : IsPlain d) (j : (⟨2, ![R, C]⟩ : Shape).Idx) (k : d.contr.Idx) :
    (d.lhsIdx j k 0).val = (j 0).val := by
  unfold DotDims.lhsIdx
  rw [dif_neg (by rw [h.lb]; exact List.not_mem_nil), dif_pos (by rw [h.ln]; exact List.mem_singleton.mpr rfl)]
  simp only [Fin.val_cast]
  exact coord_congr j _ _ _ _ (by simp [h.lb, h.ln])

/-- The right operand's column is the result's column. -/
theorem rhs_col (h : IsPlain d) (j : (⟨2, ![R, C]⟩ : Shape).Idx) (k : d.contr.Idx) :
    (d.rhsIdx j k 1).val = (j 1).val := by
  unfold DotDims.rhsIdx
  rw [dif_neg (by rw [h.rb]; exact List.not_mem_nil), dif_pos (by rw [h.rn]; exact List.mem_singleton.mpr rfl)]
  simp only [Fin.val_cast]
  exact coord_congr j _ _ _ _ (by simp [h.lb, h.ln, h.rn])

theorem contr_rank (h : IsPlain d) : d.contr.rank = 1 := by
  rw [d.rank_contr, h.lc]; rfl

theorem contr_size (h : IsPlain d) : d.contr.size ⟨0, by rw [contr_rank h]; exact Nat.one_pos⟩ = K := by
  rw [d.size_contr 0 (by rw [h.lc]; exact Nat.one_pos)]
  simp [h.lc]

/-- The product read at (p, q): the sum over the contracted axis. -/
theorem sum_apply (h : IsPlain d) {φ₁ φ₂ : FTy} (l : FVec Ideal ⟨2, ![R, K]⟩ φ₁) (r : FVec Ideal ⟨2, ![K, C]⟩ φ₂)
    (p : Fin R) (q : Fin C) :
    (∑ k : d.contr.Idx, l (d.lhsIdx (ix2 p q) k) * r (d.rhsIdx (ix2 p q) k)) = ∑ k : Fin K, l (ix2 p k) * r (ix2 k q) := by
  rw [← Equiv.sum_comp (contrEquiv1 d K (contr_rank h) (contr_size h)).symm]
  refine Finset.sum_congr rfl fun k _ => ?_
  have hk := contrEquiv1_symm_val d K (contr_rank h) (contr_size h) k
  have el : d.lhsIdx (ix2 p q) ((contrEquiv1 d K (contr_rank h) (contr_size h)).symm k) = ix2 p k := funext fun a => Fin.ext (by
    match a with
    | ⟨0, _⟩ => exact lhs_row h _ _
    | ⟨1, _⟩ => exact (d.lhsIdx_val_of_single h.lc _ _).trans hk)
  have er : d.rhsIdx (ix2 p q) ((contrEquiv1 d K (contr_rank h) (contr_size h)).symm k) = ix2 k q := funext fun a => Fin.ext (by
    match a with
    | ⟨0, _⟩ => exact (d.rhsIdx_val_of_single h.rc _ _).trans hk
    | ⟨1, _⟩ => exact rhs_col h _ _)
  rw [el, er]

/-- A kernel's matrix product into a zero accumulator, read at (p, q). -/
theorem matmul_zero_apply (h : IsPlain d) {φ₁ φ₂ : FTy} (prec : Option ContractPrecision)
    (l : FVec Ideal ⟨2, ![R, K]⟩ φ₁) (r : FVec Ideal ⟨2, ![K, C]⟩ φ₂) (p : Fin R) (q : Fin C) :
    FloatOps.matmul d prec l r (constant ⟨2, ![R, C]⟩ .f32 0x00000000#32) (ix2 p q) = ∑ k : Fin K, l (ix2 p k) * r (ix2 k q) := by
  rw [Ideal.matmul_constant_zero_apply]
  exact sum_apply h l r p q

/-- The host's matrix product read at (p, q). -/
theorem dotGeneral_apply (h : IsPlain d) {φ₁ φ₂ : FTy} (prec : Option ContractPrecision) (sched : HostSchedule)
    (l : FVec Ideal ⟨2, ![R, K]⟩ φ₁) (r : FVec Ideal ⟨2, ![K, C]⟩ φ₂) (p : Fin R) (q : Fin C) :
    FloatOps.dotGeneral d prec sched l r (ix2 p q) = ∑ k : Fin K, l (ix2 p k) * r (ix2 k q) := by
  rw [Ideal.dotGeneral_apply]
  exact sum_apply h l r p q

end Idealize.ShloMosaic.PlainDot

end
-- ==== Proof.Chain.lean ====
/-
  The graph half of the layer, as functions of the edge list alone, and the aggregation as a function of the
  edge list and of the transformed features. Both programs apply these same operations, in this order; the
  only array that differs between them on the way in is the product of the features by the weights, so it is
  the one argument left open here.

  An edge list `e : i32[2, 500000]` has the sources in row 0 and the targets in row 1. A self-loop
  `v → v` is appended for every node `v < 50000`, which gives 550000 edges. A negative node number
  counts from the end (50000 is added). The degree of a node is the number of edges that end in it,
  `dinv v = deg v ^ (-1/2)` where the degree is positive and `0` elsewhere, the weight of an edge
  `s → d` is `dinv s · dinv d`, and the aggregate at node `d` is the sum, over the edges that end in
  `d`, of the edge's weight times row `s` of the transformed features.
-/
import proofs.«135496_j73203422593428_1_alg».proof.Proof.Gen.KernelIdeal

noncomputable section

namespace Cert.KernelIdeal.Graph

open Cert.KernelIdeal Cert.KernelIdeal.Gen Idealize.ShloMosaic

variable {F : FTy → Type} [FloatOps F]

/-- The source of every edge: row 0 of the edge list, then the self-loops' `0, 1, …, 49999`. -/
def src (e : (⟨S2x500000, .i32⟩ : BufTy).Contents (Elt F)) : (⟨S550000, .i32⟩ : BufTy).Contents (Elt F) :=
  concatenate S550000 0 [⟨S500000, (shapeCast _ (extractStridedSlice S1x500000 ![0, 0] e slices_S2x500000_S1x500000_0_0) shapeCasts_S1x500000_S500000)⟩, ⟨S50000, (iotaInDim S50000 32 0)⟩] concatenates_S500000_S50000_S550000_d0

/-- The target of every edge: row 1 of the edge list, then the self-loops' `0, 1, …, 49999`. -/
def dst (e : (⟨S2x500000, .i32⟩ : BufTy).Contents (Elt F)) : (⟨S550000, .i32⟩ : BufTy).Contents (Elt F) :=
  concatenate S550000 0 [⟨S500000, (shapeCast _ (extractStridedSlice S1x500000 ![1, 0] e slices_S2x500000_S1x500000_1_0) shapeCasts_S1x500000_S500000)⟩, ⟨S50000, (iotaInDim S50000 32 0)⟩] concatenates_S500000_S50000_S550000_d0

/-- A node number as a row to read: a negative one counts from the end, `50000` is added to it. -/
def wrap (v : (⟨S550000, .i32⟩ : BufTy).Contents (Elt F)) : (⟨S550000, .i32⟩ : BufTy).Contents (Elt F) :=
  select (cmpi .slt v (broadcastInDim S550000 ![] bcast_S_S550000 (constantI S_ 32 0#32))) (addi v (broadcastInDim S550000 ![] bcast_S_S550000 (constantI S_ 32 50000#32))) v

/-- The degree of every node: a one added at its target for every edge, onto zero. -/
def deg (e : (⟨S2x500000, .i32⟩ : BufTy).Contents (Elt F)) : (⟨S50000, .f32⟩ : BufTy).Contents (Elt F) :=
  Host.scatterAdd scatter_S50000_S550000x1_S550000_n_0_0_1 (broadcastInDim S50000 ![] bcast_S_S50000 (constant S_ .f32 0x00000000#32)) (broadcastInDim S550000x1 ![0] bcast_S550000_S550000x1_0 (dst e)) (broadcastInDim S550000 ![] bcast_S_S550000 (constant S_ .f32 0x3F800000#32))

/-- The inverse square root of the degree where the degree is positive, zero elsewhere. -/
def dinv (e : (⟨S2x500000, .i32⟩ : BufTy).Contents (Elt F)) : (⟨S50000, .f32⟩ : BufTy).Contents (Elt F) :=
  select (cmpf (F := F) .ogt (deg e) (broadcastInDim S50000 ![] bcast_S_S50000 (constant S_ .f32 0x00000000#32))) (Host.rsqrt (deg e)) (broadcastInDim S50000 ![] bcast_S_S50000 (id (constant S_ .f32 0x00000000#32)))

/-- The weight of every edge: `dinv` at its source times `dinv` at its target. -/
def weight (e : (⟨S2x500000, .i32⟩ : BufTy).Contents (Elt F)) : (⟨S550000, .f32⟩ : BufTy).Contents (Elt F) :=
  mulf (Host.gather gather_S50000_S550000x1_S550000_n_0_n_n_0_1_1 (dinv e) (broadcastInDim S550000x1 ![0] bcast_S550000_S550000x1_0 (wrap (src e)))) (Host.gather gather_S50000_S550000x1_S550000_n_0_n_n_0_1_1 (dinv e) (broadcastInDim S550000x1 ![0] bcast_S550000_S550000x1_0 (wrap (dst e))))

/-- The aggregate: for every edge, row `src` of the transformed features `xw` times the edge's weight, added at
    row `dst`, onto zero. -/
def agg (e : (⟨S2x500000, .i32⟩ : BufTy).Contents (Elt F)) (xw : (⟨S50000x128, .f32⟩ : BufTy).Contents (Elt F)) :
    (⟨S50000x128, .f32⟩ : BufTy).Contents (Elt F) :=
  Host.scatterAdd scatter_S50000x128_S550000x1_S550000x128_1_0_0_1 (broadcastInDim S50000x128 ![] bcast_S_S50000x128 (constant S_ .f32 0x00000000#32)) (broadcastInDim S550000x1 ![0] bcast_S550000_S550000x1_0 (dst e)) (mulf (Host.gather gather_S50000x128_S550000x1_S550000x128_1_0_n_n_0_1_1128 xw (broadcastInDim S550000x1 ![0] bcast_S550000_S550000x1_0 (wrap (src e)))) (broadcastInDim S550000x128 ![0, 1] bcast_S550000x1_S550000x128_0_1 (broadcastInDim S550000x1 ![0] bcast_S550000_S550000x1_0 (weight e))))

end Cert.KernelIdeal.Graph

end
-- ==== Proof.Spec.lean ====
/-
  The layer as one function of the four arguments, at the exact instance.

  `prod x w (r, q) = Σ_k x (r, k) · w (k, q)` is the product of the features by the weights;
  `biasRelu a b (r, q) = max (a (r, q) + b (0, q)) 0` adds a one-row array to every row and takes the larger of
  that and the zero word; `layer x e w b (r, q) = max (agg e (prod x w) (r, q) + b q) 0` is the whole layer:
  the aggregate over the graph `e` of the transformed features, plus the bias, rectified. A bias vector laid out
  as one row and read at `(0, q)` is the vector at `q`, so `biasRelu` of the aggregate and the reshaped bias is
  `layer`.
-/
import proofs.«135496_j73203422593428_1_alg».proof.Proof.Chain
import Idealize.ShloMosaic.PureOps.Ideal
import Idealize.ShloMosaic.Lib.ValueIdx
import Idealize.ShloMosaic.Lib.Pipeline.Value

noncomputable section

namespace Cert.KernelIdeal.Graph

open Cert.KernelIdeal Cert.KernelIdeal.Gen Idealize.ShloMosaic Idealize.ShloMosaic.ValueIdx

/-- The product of a 50000 × 128 array by a 128 × 128 array, entry by entry. -/
def prod (x : FVec Ideal S50000x128 .f32) (w : FVec Ideal S128x128 .f32) : FVec Ideal S50000x128 .f32 :=
  fun i => ∑ k : Fin 128, x (ix2 (i 0) k) * w (ix2 k (i 1))

/-- A one-row array added to every row of an array, then the larger of that and the zero word. -/
def biasRelu (a : FVec Ideal S50000x128 .f32) (b : FVec Ideal S1x128 .f32) : FVec Ideal S50000x128 .f32 :=
  fun i => max (a i + b (ix2 0 (i 1))) (FloatOps.ofBits (F := Ideal) .f32 0x00000000#32)

/-- The layer: aggregate the transformed features over the graph, add the bias to every row, rectify. -/
def layer (x : FVec Ideal S50000x128 .f32) (e : (⟨S2x500000, .i32⟩ : BufTy).Contents (Elt Ideal))
    (w : FVec Ideal S128x128 .f32) (b : FVec Ideal S128 .f32) : FVec Ideal S50000x128 .f32 :=
  fun i => max (agg e (prod x w) i + b (ix1 (i 1))) (FloatOps.ofBits (F := Ideal) .f32 0x00000000#32)

/-- The bias vector laid out as one row, read at `(0, q)`, is the vector at `q`. -/
theorem row_apply (b : FVec Ideal S128 .f32) (q : Fin 128) :
    shapeCast S1x128 b shapeCasts_S128_S1x128 (ix2 0 q) = b (ix1 q) :=
  shapeCast_apply b shapeCasts_S128_S1x128 (ix2 0 q) (ix1 q) (by
    rw [Shape.rowMajor_val_one, Shape.rowMajor_val_two]
    show q.val = 0 * 128 + q.val
    omega)

/-- `biasRelu` of the aggregate and the bias laid out as one row is the layer. -/
theorem biasRelu_row (x : FVec Ideal S50000x128 .f32) (e : (⟨S2x500000, .i32⟩ : BufTy).Contents (Elt Ideal))
    (w : FVec Ideal S128x128 .f32) (b : FVec Ideal S128 .f32) :
    biasRelu (agg e (prod x w)) (shapeCast S1x128 b shapeCasts_S128_S1x128) = layer x e w b := by
  funext i
  unfold biasRelu layer
  rw [row_apply b (i 1)]

end Cert.KernelIdeal.Graph

end
-- ==== Proof.Blocks.lean ====
/-
  What the two kernel regions leave in their result arrays, at the exact instance, for ANY contents `V` of the
  buffers when the region is entered.

  Region 0 runs over five row blocks of 10000 rows. At block `t` it reads rows `10000 t … 10000 t + 9999` of
  the features and the whole 128 × 128 weight matrix, and writes the product of the two (both narrowed to
  bf16 first, which is the identity on exact numbers; the accumulator starts at zero) to the same rows of its
  result. So its result array is the product of the two arrays, entry by entry:
  `prod x w (r, q) = Σ_k x (r, k) · w (k, q)`.

  Region 1 runs over the same five row blocks. At block `t` it reads those rows of its first array and the one
  row of its second, and writes `max (a (r, q) + b (0, q)) 0` to the same rows of its result: `biasRelu a b`.

  The five blocks tile the 50000 rows (row `r` is in block `r / 10000`), so each result array IS that function.
-/
import proofs.«135496_j73203422593428_1_alg».proof.Proof.Gen.KernelIdeal.Frame
import proofs.«135496_j73203422593428_1_alg».proof.Proof.LibPlainDot
import proofs.«135496_j73203422593428_1_alg».proof.Proof.Spec
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Blocks

open Cert.KernelIdeal Cert.KernelIdeal.Gen Cert.KernelIdeal.Graph

theorem hz : (![0, 0] : Fin 2 → Nat) = fun _ => 0 := funext fun a => by fin_cases a <;> rfl

/-! ## The bodies' stored values at an index -/

/-- The matmul's dimension numbers are the plain ones: rows by columns over the one shared axis. -/
theorem plain0 : PlainDot.IsPlain dot_S10000x128_S128x128_S10000x128_1_0_0_1_n_n := ⟨rfl, rfl, rfl, rfl, rfl, rfl⟩

/-- What region 0's body stores, at row `p` and column `q` of the block: the sum over `k` of the loaded rows' entry
    `(p, k)` times the loaded matrix' entry `(k, q)`. -/
theorem pay0_apply (x0 : Vec Ideal S10000x128 .f32) (x1 : Vec Ideal S128x128 .f32) (p : Fin 10000) (q : Fin 128) :
    k0_pay1 x0 x1 (ix2 p q) = ∑ k : Fin 128, x0 (ix2 p k) * x1 (ix2 k q) := by
  unfold k0_pay1
  exact PlainDot.matmul_zero_apply plain0 none _ _ p q

theorem pay0_at (x0 : Vec Ideal S10000x128 .f32) (x1 : Vec Ideal S128x128 .f32) (y : S10000x128.Idx) :
    k0_pay1 x0 x1 y = ∑ k : Fin 128, x0 (ix2 (y 0) k) * x1 (ix2 k (y 1)) := by
  obtain ⟨p, q, rfl⟩ : ∃ (p : Fin 10000) (q : Fin 128), y = ix2 p q := ⟨y 0, y 1, eq_ix2 y⟩
  exact pay0_apply x0 x1 p q

/-- What region 1's body stores, at an index of the block: the loaded entry plus the loaded row's entry of the same
    column, or the zero word if that is larger. -/
theorem pay1_at (x0 : Vec Ideal S10000x128 .f32) (x1 : Vec Ideal S1x128 .f32) (y : S10000x128.Idx) :
    k1_pay1 x0 x1 y = max (x0 y + x1 (ix2 0 (y 1))) (FloatOps.ofBits (F := Ideal) .f32 0x00000000#32) := by
  unfold k1_pay1
  show max (shapeCast S10000x128 x0 _ y + broadcastTo S10000x128 (shapeCast S1x128 x1 _) _ y) _ = _
  rw [shapeCast_self, shapeCast_self, broadcastTo_apply x1 _ y (ix2 0 (y 1)) (fun a => by
    match a with
    | ⟨0, _⟩ => rfl
    | ⟨1, _⟩ => rfl)]
  rfl

section Regions

variable (V : (c : Dev nD) → (b : Ref sig .tc) → Buf (Elt Ideal) ((c : Thread nD τ).loc b))

/-! ## Region 0 -/

/-- The printed index maps over the grid: the row windows sit at block `t`, the matrix window at block 0. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The feature window's block at point `t`, read at `x`, is the array at row `10000 t + x 0`, column `x 1`. -/
theorem rows0 (c : Dev nD) (t : Fin cfg0.N) (x : S10000x128.Idx) (i : S50000x128.Idx)
    (h0 : (i 0).val = 10000 * t.val + (x 0).val) (h1 : (i 1).val = (x 1).val) :
    (iblk0 V c 0 t : Vec Ideal S10000x128 .f32) x = (V c main_arg0 : FVec Ideal S50000x128 .f32) i := by
  obtain ⟨e00, e01, -⟩ := idx0 t
  unfold iblk0
  rw [View.read_apply]
  show (V c main_arg0 : FVec Ideal S50000x128 .f32) _ = _
  refine congrArg (V c main_arg0 : FVec Ideal S50000x128 .f32) (funext fun a => Fin.ext ?_)
  match a with
  | ⟨0, _⟩ => show win0_0.index t (0 : Fin 2) * 10000 + 1 * (x 0).val = (i 0).val; rw [e00, h0]; omega
  | ⟨1, _⟩ => show win0_0.index t (1 : Fin 2) * 128 + 1 * (x 1).val = (i 1).val; rw [e01, h1]; omega

/-- The weight window's block at any point is the whole matrix. -/
theorem mat0 (c : Dev nD) (t : Fin cfg0.N) (x : S128x128.Idx) (i : S128x128.Idx)
    (h0 : (i 0).val = (x 0).val) (h1 : (i 1).val = (x 1).val) :
    (iblk0 V c 1 t : Vec Ideal S128x128 .f32) x = (V c main_arg2 : FVec Ideal S128x128 .f32) i := by
  obtain ⟨-, -, e10, e11, -⟩ := idx0 t
  unfold iblk0
  rw [View.read_apply]
  show (V c main_arg2 : FVec Ideal S128x128 .f32) _ = _
  refine congrArg (V c main_arg2 : FVec Ideal S128x128 .f32) (funext fun a => Fin.ext ?_)
  match a with
  | ⟨0, _⟩ => show win0_1.index t (0 : Fin 2) * 128 + 1 * (x 0).val = (i 0).val; rw [e10, h0]; omega
  | ⟨1, _⟩ => show win0_1.index t (1 : Fin 2) * 128 + 1 * (x 1).val = (i 1).val; rw [e11, h1]; omega

/-- What point `t` writes back is block `t` of the product of the two arrays as the region finds them. -/
theorem flushed0 (c : Dev nD) (t : Fin cfg0.N) :
    (dat0 V c).flushed 2 t = ((cfg0.win 2).blk t).view.read (Elt Ideal) (prod (V c main_arg0) (V c main_arg2)) := by
  show (cfg0.win 2).cut (grid0.coords t) ((dat0 V c).after 2 t) = _
  rw [after0_2]
  unfold out0_2
  rw [View.canon_unit_zero hz]
  simp only [View.ld_unit_zero (S := S10000x128) hz, View.ld_unit_zero (S := S128x128) hz]
  obtain ⟨-, -, -, -, e20, e21⟩ := idx0 t
  funext j
  rw [View.read_apply]
  refine (pay0_at (iblk0 V c 0 t) (iblk0 V c 1 t) j).trans ?_
  unfold prod
  refine Finset.sum_congr rfl fun k _ => ?_
  rw [rows0 V c t (ix2 (j 0) k) (ix2 ((((cfg0.win 2).blk t).view.emb j) 0) k)
      (by show win0_2.index t (0 : Fin 2) * 10000 + 1 * (j 0).val = 10000 * t.val + (j 0).val; rw [e20]; omega) rfl,
    mat0 V c t (ix2 k (j 1)) (ix2 k ((((cfg0.win 2).blk t).view.emb j) 1)) rfl
      (by show win0_2.index t (1 : Fin 2) * 128 + 1 * (j 1).val = (j 1).val; rw [e21]; omega)]

/-- An index of the result array is in point `t`'s block iff each coordinate is in the block's range on its axis. -/
theorem mem_blk0 (t : Fin cfg0.N) (i : S50000x128.Idx) :
    i ∈ ((cfg0.win 2).blk t).view.set ↔ ∀ a : Fin 2, win0_2.index t a * S10000x128.size a ≤ (i a).val ∧ (i a).val < win0_2.index t a * S10000x128.size a + S10000x128.size a := by
  show i ∈ ((View.whole main_v30).slice (win0_2.rect t)).set ↔ _
  rw [View.set_slice_whole, Rect.mem_set_unit]
  exact Iff.rfl

/-- Row `r` of the result array is in block `r / 10000`. -/
theorem cover0 (i : S50000x128.Idx) : ∃ t : Fin cfg0.N, (cfg0.win 2).flush t = true ∧ i ∈ ((cfg0.win 2).blk t).view.set := by
  have hi0 : (i 0).val < 50000 := idx2_lt0 i
  have hi1 : (i 1).val < 128 := idx2_lt1 i
  have hN : grid0.N = 5 := N_0
  let t : Fin cfg0.N := ⟨(i 0).val / 10000, by show _ < grid0.N; omega⟩
  obtain ⟨-, -, -, -, e20, e21⟩ := idx0 t
  refine ⟨t, flush0_2 t, ?_⟩
  rw [mem_blk0]
  intro a
  match a with
  | ⟨0, _⟩ =>
    show win0_2.index t (0 : Fin 2) * 10000 ≤ (i 0).val ∧ (i 0).val < win0_2.index t (0 : Fin 2) * 10000 + 10000
    rw [e20]; show (i 0).val / 10000 * 10000 ≤ (i 0).val ∧ (i 0).val < (i 0).val / 10000 * 10000 + 10000; omega
  | ⟨1, _⟩ =>
    show win0_2.index t (1 : Fin 2) * 128 ≤ (i 1).val ∧ (i 1).val < win0_2.index t (1 : Fin 2) * 128 + 128
    rw [e21]; omega

/-- Region 0's result array after the region: the product of the two arrays it was entered with. -/
theorem final0 (c : Dev nD) : (dat0 V c).arrAt 2 cfg0.N = prod (V c main_arg0) (V c main_arg2) :=
  (dat0 V c).arrAt_eq_of_cover 2 (prod (V c main_arg0) (V c main_arg2)) (fun t _ => flushed0 V c t) cover0

/-! ## Region 1 -/

/-- The printed index maps over the grid: the row windows sit at block `t`, the one-row window at block 0. -/
theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The first window's block at point `t`, read at `x`, is the array at row `10000 t + x 0`, column `x 1`. -/
theorem rows1 (c : Dev nD) (t : Fin cfg1.N) (x : S10000x128.Idx) (i : S50000x128.Idx)
    (h0 : (i 0).val = 10000 * t.val + (x 0).val) (h1 : (i 1).val = (x 1).val) :
    (iblk1 V c 0 t : Vec Ideal S10000x128 .f32) x = (V c main_v43 : FVec Ideal S50000x128 .f32) i := by
  obtain ⟨e00, e01, -⟩ := idx1 t
  unfold iblk1
  rw [View.read_apply]
  show (V c main_v43 : FVec Ideal S50000x128 .f32) _ = _
  refine congrArg (V c main_v43 : FVec Ideal S50000x128 .f32) (funext fun a => Fin.ext ?_)
  match a with
  | ⟨0, _⟩ => show win1_0.index t (0 : Fin 2) * 10000 + 1 * (x 0).val = (i 0).val; rw [e00, h0]; omega
  | ⟨1, _⟩ => show win1_0.index t (1 : Fin 2) * 128 + 1 * (x 1).val = (i 1).val; rw [e01, h1]; omega

/-- The one-row window's block at any point is the whole row. -/
theorem row1 (c : Dev nD) (t : Fin cfg1.N) (x : S1x128.Idx) (i : S1x128.Idx)
    (h0 : (i 0).val = (x 0).val) (h1 : (i 1).val = (x 1).val) :
    (iblk1 V c 1 t : Vec Ideal S1x128 .f32) x = (V c main_v44 : FVec Ideal S1x128 .f32) i := by
  obtain ⟨-, -, e10, e11, -⟩ := idx1 t
  unfold iblk1
  rw [View.read_apply]
  show (V c main_v44 : FVec Ideal S1x128 .f32) _ = _
  refine congrArg (V c main_v44 : FVec Ideal S1x128 .f32) (funext fun a => Fin.ext ?_)
  match a with
  | ⟨0, _⟩ => show win1_1.index t (0 : Fin 2) * 1 + 1 * (x 0).val = (i 0).val; rw [e10, h0]; omega
  | ⟨1, _⟩ => show win1_1.index t (1 : Fin 2) * 128 + 1 * (x 1).val = (i 1).val; rw [e11, h1]; omega

/-- What point `t` writes back is block `t` of `biasRelu` of the two arrays as the region finds them. -/
theorem flushed1 (c : Dev nD) (t : Fin cfg1.N) :
    (dat1 V c).flushed 2 t = ((cfg1.win 2).blk t).view.read (Elt Ideal) (biasRelu (V c main_v43) (V c main_v44)) := by
  show (cfg1.win 2).cut (grid1.coords t) ((dat1 V c).after 2 t) = _
  rw [after1_2]
  unfold out1_2
  rw [View.canon_unit_zero hz]
  simp only [View.ld_unit_zero (S := S10000x128) hz, View.ld_unit_zero (S := S1x128) hz]
  obtain ⟨-, -, -, -, e20, e21⟩ := idx1 t
  funext j
  rw [View.read_apply]
  refine (pay1_at (iblk1 V c 0 t) (iblk1 V c 1 t) j).trans ?_
  unfold biasRelu
  rw [rows1 V c t j (((cfg1.win 2).blk t).view.emb j)
      (by show win1_2.index t (0 : Fin 2) * 10000 + 1 * (j 0).val = 10000 * t.val + (j 0).val; rw [e20]; omega)
      (by show win1_2.index t (1 : Fin 2) * 128 + 1 * (j 1).val = (j 1).val; rw [e21]; omega),
    row1 V c t (ix2 0 (j 1)) (ix2 0 ((((cfg1.win 2).blk t).view.emb j) 1)) rfl
      (by show win1_2.index t (1 : Fin 2) * 128 + 1 * (j 1).val = (j 1).val; rw [e21]; omega)]
  first | rfl | exact (cast_eq _ _).symm

/-- An index of the result array is in point `t`'s block iff each coordinate is in the block's range on its axis. -/
theorem mem_blk1 (t : Fin cfg1.N) (i : S50000x128.Idx) :
    i ∈ ((cfg1.win 2).blk t).view.set ↔ ∀ a : Fin 2, win1_2.index t a * S10000x128.size a ≤ (i a).val ∧ (i a).val < win1_2.index t a * S10000x128.size a + S10000x128.size a := by
  show i ∈ ((View.whole main_v45).slice (win1_2.rect t)).set ↔ _
  rw [View.set_slice_whole, Rect.mem_set_unit]
  exact Iff.rfl

/-- Row `r` of the result array is in block `r / 10000`. -/
theorem cover1 (i : S50000x128.Idx) : ∃ t : Fin cfg1.N, (cfg1.win 2).flush t = true ∧ i ∈ ((cfg1.win 2).blk t).view.set := by
  have hi0 : (i 0).val < 50000 := idx2_lt0 i
  have hi1 : (i 1).val < 128 := idx2_lt1 i
  have hN : grid1.N = 5 := N_1
  let t : Fin cfg1.N := ⟨(i 0).val / 10000, by show _ < grid1.N; omega⟩
  obtain ⟨-, -, -, -, e20, e21⟩ := idx1 t
  refine ⟨t, flush1_2 t, ?_⟩
  rw [mem_blk1]
  intro a
  match a with
  | ⟨0, _⟩ =>
    show win1_2.index t (0 : Fin 2) * 10000 ≤ (i 0).val ∧ (i 0).val < win1_2.index t (0 : Fin 2) * 10000 + 10000
    rw [e20]; show (i 0).val / 10000 * 10000 ≤ (i 0).val ∧ (i 0).val < (i 0).val / 10000 * 10000 + 10000; omega
  | ⟨1, _⟩ =>
    show win1_2.index t (1 : Fin 2) * 128 ≤ (i 1).val ∧ (i 1).val < win1_2.index t (1 : Fin 2) * 128 + 128
    rw [e21]; omega

/-- Region 1's result array after the region: `biasRelu` of the two arrays it was entered with. -/
theorem final1 (c : Dev nD) : (dat1 V c).arrAt 2 cfg1.N = biasRelu (V c main_v43) (V c main_v44) :=
  (dat1 V c).arrAt_eq_of_cover 2 (biasRelu (V c main_v43) (V c main_v44)) (fun t _ => flushed1 V c t) cover1

end Regions

end Cert.KernelIdeal.Blocks

end
-- ==== Proof.KernelValue.lean ====
/-
  The idealized kernel's result array as the layer of its four arguments.

  @main is five stretches: host operations (the edges' ends, the degrees, the edge weights), region 0 (the
  product of the features by the weights), host operations (the aggregation, and the bias laid out as one row),
  region 1 (bias and rectifier). The buffer contents at each boundary are a fold through them. Read back:
  before region 0 the ends of the edges are `src e` and `dst e` and the weights `weight e`, the arguments
  as launched; region 0 leaves `prod x w` in its result array and touches nothing else that is read later; the
  next stretch computes `agg e (prod x w)` from those four and lays the bias out as one row; region 1 leaves
  `biasRelu` of the two in the program's result, which is `layer x e w b`.
-/
import proofs.«135496_j73203422593428_1_alg».proof.Proof.KernelRun
import proofs.«135496_j73203422593428_1_alg».proof.Proof.Blocks
import Idealize.ShloMosaic.Lib.StableHlo.Run

set_option maxRecDepth 16384

noncomputable section

open Idealize.ShloMosaic Idealize.ShloMosaic.TcCoe Idealize.SL.Sem Idealize.ShloMosaic.StableHlo Idealize.ShloMosaic.ValueIdx
open Idealize.ShloMosaic.Pipeline (Dat)

namespace Cert.KernelIdeal.Layer

open Cert.KernelIdeal Cert.KernelIdeal.Gen Cert.KernelIdeal.Graph Cert.KernelIdeal.Blocks

/-! The host stretches are read back for any float family: the terms compared are then only operations applied to
    operations, and nothing of an instance is there to be unfolded. -/

section AnyFamily

variable {F : FTy → Type} [FloatOps F]
variable (m : (ℓ : Loc nD τ sig) → Buf (Elt F) ℓ) (ρ : Dev nD → PrngReg)

/-! ## Before region 0 -/

/-- No host operation before region 0 writes the features. -/
theorem W3_x (c : Dev nD) : W3 m ρ c (Proc.devRef .tc main_arg0) = m ((c : Thread nD τ).loc main_arg0) := by
  show StableHlo.after hostOps0_2 (StableHlo.after hostOps0_1 (StableHlo.after hostOps0 (W0 m ρ c))) (Proc.devRef .tc main_arg0) = _
  after_results_simp <;> rfl

/-- No host operation before region 0 writes the weights. -/
theorem W3_w (c : Dev nD) : W3 m ρ c (Proc.devRef .tc main_arg2) = m ((c : Thread nD τ).loc main_arg2) := by
  show StableHlo.after hostOps0_2 (StableHlo.after hostOps0_1 (StableHlo.after hostOps0 (W0 m ρ c))) (Proc.devRef .tc main_arg2) = _
  after_results_simp <;> rfl

/-- No host operation before region 0 writes the bias. -/
theorem W3_b (c : Dev nD) : W3 m ρ c (Proc.devRef .tc main_arg3) = m ((c : Thread nD τ).loc main_arg3) := by
  show StableHlo.after hostOps0_2 (StableHlo.after hostOps0_1 (StableHlo.after hostOps0 (W0 m ρ c))) (Proc.devRef .tc main_arg3) = _
  after_results_simp <;> rfl

/-- The edges' sources. -/
theorem W3_src (c : Dev nD) : W3 m ρ c (Proc.devRef .tc main_v3) = src (m ((c : Thread nD τ).loc main_arg1)) := by
  show StableHlo.after hostOps0_2 (StableHlo.after hostOps0_1 (StableHlo.after hostOps0 (W0 m ρ c))) (Proc.devRef .tc main_v3) = _
  after_results_simp <;> rfl

/-- The edges' targets. -/
theorem W3_dst (c : Dev nD) : W3 m ρ c (Proc.devRef .tc main_v6) = dst (m ((c : Thread nD τ).loc main_arg1)) := by
  show StableHlo.after hostOps0_2 (StableHlo.after hostOps0_1 (StableHlo.after hostOps0 (W0 m ρ c))) (Proc.devRef .tc main_v6) = _
  after_results_simp <;> rfl

/-- The edges' weights. -/
theorem W3_weight (c : Dev nD) : W3 m ρ c (Proc.devRef .tc main_v29) = weight (m ((c : Thread nD τ).loc main_arg1)) := by
  show StableHlo.after hostOps0_2 (StableHlo.after hostOps0_1 (StableHlo.after hostOps0 (W0 m ρ c))) (Proc.devRef .tc main_v29) = _
  after_results_simp <;> rfl

/-! ## After region 0 -/

/-- Region 0 writes none of the ends, the weights, the bias. -/
theorem W4_src (c : Dev nD) : W4 m ρ c (Proc.devRef .tc main_v3) = src (m ((c : Thread nD τ).loc main_arg1)) :=
  (W4_of_ne m ρ c main_v3 (by decide)).trans (W3_src m ρ c)
theorem W4_dst (c : Dev nD) : W4 m ρ c (Proc.devRef .tc main_v6) = dst (m ((c : Thread nD τ).loc main_arg1)) :=
  (W4_of_ne m ρ c main_v6 (by decide)).trans (W3_dst m ρ c)
theorem W4_weight (c : Dev nD) : W4 m ρ c (Proc.devRef .tc main_v29) = weight (m ((c : Thread nD τ).loc main_arg1)) :=
  (W4_of_ne m ρ c main_v29 (by decide)).trans (W3_weight m ρ c)
theorem W4_b (c : Dev nD) : W4 m ρ c (Proc.devRef .tc main_arg3) = m ((c : Thread nD τ).loc main_arg3) :=
  (W4_of_ne m ρ c main_arg3 (by decide)).trans (W3_b m ρ c)

/-! ## Before region 1 -/

/-- The stretch between the regions, from ANY contents in which the ends of the edges, their weights and the
    transformed features are what they are named: it leaves the aggregate. -/
theorem agg_after (Wv : Valuation τ sig (Elt F)) (e : (⟨S2x500000, .i32⟩ : BufTy).Contents (Elt F))
    (xw : (⟨S50000x128, .f32⟩ : BufTy).Contents (Elt F))
    (hs : Wv (Proc.devRef .tc main_v3) = src e) (hd : Wv (Proc.devRef .tc main_v6) = dst e)
    (hw : Wv (Proc.devRef .tc main_v29) = weight e) (hx : Wv (Proc.devRef .tc main_v30) = xw) :
    StableHlo.after hostOps1 Wv (Proc.devRef .tc main_v43) = agg e xw := by
  after_results_simp
  rw [hs, hd, hw, hx]
  rfl

/-- The same stretch lays the bias out as one row. -/
theorem row_after (Wv : Valuation τ sig (Elt F)) (b : (⟨S128, .f32⟩ : BufTy).Contents (Elt F))
    (hb : Wv (Proc.devRef .tc main_arg3) = b) :
    StableHlo.after hostOps1 Wv (Proc.devRef .tc main_v44) = shapeCast S1x128 b shapeCasts_S128_S1x128 := by
  after_results_simp
  rw [hb]
  rfl

/-- The aggregate over the graph of whatever region 0 left in its result array. -/
theorem W5_agg_of (c : Dev nD) : W5 m ρ c (Proc.devRef .tc main_v43)
    = agg (m ((c : Thread nD τ).loc main_arg1)) (W4 m ρ c (Proc.devRef .tc main_v30)) :=
  agg_after (W4 m ρ c) _ _ (W4_src m ρ c) (W4_dst m ρ c) (W4_weight m ρ c) rfl

/-- The bias laid out as one row. -/
theorem W5_row (c : Dev nD) : W5 m ρ c (Proc.devRef .tc main_v44)
    = shapeCast S1x128 (m ((c : Thread nD τ).loc main_arg3)) shapeCasts_S128_S1x128 :=
  row_after (W4 m ρ c) _ (W4_b m ρ c)

end AnyFamily

/-! ## On exact numbers -/

variable (m : (ℓ : Loc nD τ sig) → Buf (Elt Ideal) ℓ) (ρ : Dev nD → PrngReg)

/-- Region 0's result array: the product of the features by the weights. -/
theorem W4_prod (c : Dev nD) :
    W4 m ρ c (Proc.devRef .tc main_v30) = prod (m ((c : Thread nD τ).loc main_arg0)) (m ((c : Thread nD τ).loc main_arg2)) :=
  (W4_arr m ρ c 2).trans ((final0 (V3 m ρ) c).trans (congrArg₂ prod (W3_x m ρ c) (W3_w m ρ c)))

/-- The aggregate of the transformed features over the graph. -/
theorem W5_agg (c : Dev nD) : W5 m ρ c (Proc.devRef .tc main_v43)
    = agg (m ((c : Thread nD τ).loc main_arg1)) (prod (m ((c : Thread nD τ).loc main_arg0)) (m ((c : Thread nD τ).loc main_arg2))) :=
  (W5_agg_of m ρ c).trans (congrArg (agg (m ((c : Thread nD τ).loc main_arg1))) (W4_prod m ρ c))

/-! ## After region 1 -/

/-- The program's result array: the layer of the four arguments. -/
theorem W6_layer (c : Dev nD) : W6 m ρ c (Proc.devRef .tc main_v45)
    = layer (m ((c : Thread nD τ).loc main_arg0)) (m ((c : Thread nD τ).loc main_arg1)) (m ((c : Thread nD τ).loc main_arg2)) (m ((c : Thread nD τ).loc main_arg3)) :=
  (W6_arr m ρ c 2).trans ((final1 (V5 m ρ) c).trans ((congrArg₂ biasRelu (W5_agg m ρ c) (W5_row m ρ c)).trans (biasRelu_row _ _ _ _)))

/-- The run: every weakly fair execution of the idealized kernel terminates, nothing faulting, with the result array
    at the layer of the arguments and the arguments unchanged. -/
theorem run : θ_run defs (onTc (τ := τ) (main (F := Ideal))) ⟨m, fun _ => 0, ρ⟩ (fun r => ∀ c : Dev nD,
      r.2.mem ((c.tc : Thread nD τ).loc main_v45) = layer (m ((c : Thread nD τ).loc main_arg0)) (m ((c : Thread nD τ).loc main_arg1)) (m ((c : Thread nD τ).loc main_arg2)) (m ((c : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨(h c).1.trans (W6_layer m ρ c), (h c).2⟩) (run_out m ρ)

end Cert.KernelIdeal.Layer

end
-- ==== Proof.RefValue.lean ====
/-
  The idealized reference's result as the layer of its four arguments.

  The reference applies to the edge list the same operations, in the same order, as the kernel's program does
  around its two regions, so its result term is `max (agg e (x ·ₘ w) + b) 0` with `agg` the very function of
  the edge list and of the transformed features that the kernel's program computes; its product `x ·ₘ w` is one
  `dot_general` over the one shared axis, which on exact numbers is `prod x w` entry by entry; its bias is
  broadcast to one row and then to every row, which read at `(r, q)` is the vector at `q`.
-/
import proofs.«135496_j73203422593428_1_alg».proof.Proof.RefRun
import proofs.«135496_j73203422593428_1_alg».proof.Proof.Spec
import proofs.«135496_j73203422593428_1_alg».proof.Proof.LibPlainDot
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx

namespace Cert.ReferenceIdeal.Layer

open Cert.ReferenceIdeal Cert.ReferenceIdeal.Gen Cert.ReferenceIdeal.Value
open Cert.KernelIdeal.Graph (src dst wrap deg dinv weight agg prod layer)

/-- The reference's `dot_general` has the plain dimension numbers: rows by columns over the one shared axis. -/
theorem plain : PlainDot.IsPlain dot_S50000x128_S128x128_S50000x128_1_0_0_1_n_n := ⟨rfl, rfl, rfl, rfl, rfl, rfl⟩

/-- On exact numbers the reference's product is `prod`, entry by entry. -/
theorem dot_eq (x : FVec Ideal S50000x128 .f32) (w : FVec Ideal S128x128 .f32) :
    Host.dotGeneral dot_S50000x128_S128x128_S50000x128_1_0_0_1_n_n none x w = prod x w := by
  funext i
  obtain ⟨p, q, rfl⟩ : ∃ (p : Fin 50000) (q : Fin 128), i = ix2 p q := ⟨i 0, i 1, eq_ix2 i⟩
  exact PlainDot.dotGeneral_apply plain none HostSchedule.single x w p q

/-- The reference's result term, its graph half folded into `agg`: the same operations in the same order. Stated for
    any float family: the two sides are then only operations applied to operations. -/
theorem res_shape {F : FTy → Type} [FloatOps F] (m : (ℓ : Loc nD τ sig) → Buf (Elt F) ℓ) (c : Dev nD) :
    res_main_v47 m c
      = maximumf (addf (agg (m ((c.tc : Thread nD τ).loc main_arg1))
            (Host.dotGeneral (F := F) (φ₁ := .f32) (φ₂ := .f32) dot_S50000x128_S128x128_S50000x128_1_0_0_1_n_n none (m ((c.tc : Thread nD τ).loc main_arg0)) (m ((c.tc : Thread nD τ).loc main_arg2))))
          (broadcastInDim S50000x128 ![0, 1] bcast_S1x128_S50000x128_0_1 (broadcastInDim S1x128 ![1] bcast_S128_S1x128_1 (m ((c.tc : Thread nD τ).loc main_arg3)))))
        (broadcastInDim S50000x128 ![] bcast_S_S50000x128 (constant (F := F) S_ .f32 0x00000000#32)) := by
  unfold res_main_v47
  rfl

/-- The bias broadcast to one row and then to every row, read at `(p, q)`, is the vector at `q`. -/
theorem bias_apply (b : FVec Ideal S128 .f32) (p : Fin 50000) (q : Fin 128) :
    broadcastInDim S50000x128 ![0, 1] bcast_S1x128_S50000x128_0_1 (broadcastInDim S1x128 ![1] bcast_S128_S1x128_1 b) (ix2 p q) = b (ix1 q) :=
  (broadcastInDim_apply ![0, 1] bcast_S1x128_S50000x128_0_1 (broadcastInDim S1x128 ![1] bcast_S128_S1x128_1 b) (ix2 p q) (ix2 0 q) (fun a => by
      match a with
      | ⟨0, _⟩ => rfl
      | ⟨1, _⟩ => rfl)).trans
    (broadcastInDim_apply ![1] bcast_S128_S1x128_1 b (ix2 0 q) (ix1 q) (fun a => by
      match a with
      | ⟨0, _⟩ => rfl))

/-- The reference's result is the layer of its arguments. -/
theorem res_eq (m : (ℓ : Loc nD τ sig) → Buf (Elt Ideal) ℓ) (c : Dev nD) :
    res_main_v47 m c = layer (m ((c.tc : Thread nD τ).loc main_arg0)) (m ((c.tc : Thread nD τ).loc main_arg1)) (m ((c.tc : Thread nD τ).loc main_arg2)) (m ((c.tc : Thread nD τ).loc main_arg3)) := by
  rw [res_shape, dot_eq]
  funext i
  obtain ⟨p, q, rfl⟩ : ∃ (p : Fin 50000) (q : Fin 128), i = ix2 p q := ⟨i 0, i 1, eq_ix2 i⟩
  exact congrArg₂ max (congrArg₂ HAdd.hAdd rfl (bias_apply _ p q)) rfl

end Cert.ReferenceIdeal.Layer

end
-- ==== Proof.lean ====
/-
  A graph-convolution layer: `out = max (A (x W) + b, 0)`, where `x : f32[50000, 128]` are the node features,
  `W : f32[128, 128]` the weights, `b : f32[128]` the bias, and `A` the normalised adjacency of the graph the
  edge list `e : i32[2, 500000]` describes: a self-loop is added at every node, the degree of a node counts the
  edges that end in it, and an edge `s → d` carries the weight `deg(s)^(-1/2) · deg(d)^(-1/2)`.

  The kernel's program computes `x W` in a first region, five row blocks of 10000 rows at a time (operands narrowed
  to bf16, accumulated from zero), aggregates over the edges with host operations, and adds the bias and rectifies in
  a second region over the same five row blocks. The reference computes `x W` as one product and does the rest with
  host operations. The graph half is the same operations in the same order on both sides (`Graph.agg`); narrowing
  is the identity on exact numbers; a product into a zero accumulator and the host's product are both the plain
  sum over the shared axis (`Graph.prod`); the blocks tile the rows. So on the extended reals both end at
  `Graph.layer x e W b`, index by index, and no law of arithmetic beyond that is used: finiteness of the inputs
  is never opened.

  The three frames are the generated ones (the reference's is its run with the result dropped); the ideal pass
  rewrote nothing, so `preserves` is `True`.
-/
import proofs.«135496_j73203422593428_1_alg».proof.Defs
import proofs.«135496_j73203422593428_1_alg».proof.Proof.Gen.Kernel
import proofs.«135496_j73203422593428_1_alg».proof.Proof.Gen.Kernel.Frame
import proofs.«135496_j73203422593428_1_alg».proof.Proof.Gen.KernelIdeal
import proofs.«135496_j73203422593428_1_alg».proof.Proof.Gen.KernelIdeal.Frame
import proofs.«135496_j73203422593428_1_alg».proof.Proof.Gen.ReferenceIdeal
import proofs.«135496_j73203422593428_1_alg».proof.Proof.Gen.Pre_finite_inputs
import proofs.«135496_j73203422593428_1_alg».proof.Proof.KernelValue
import proofs.«135496_j73203422593428_1_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both idealized programs end with their result array at the layer of the arguments, which agree. -/
theorem algebraic : Cert.algebraic_KernelIdeal_ReferenceIdeal := by
  intro m ρ m' ρ' _ hagree
  refine ⟨_, Cert.KernelIdeal.Layer.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3⟩ := hagree c
  rw [Cert.ReferenceIdeal.Layer.res_eq, h0, h1, h2, h3]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
